-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 38
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The layer this certificate is about, as one function of its arrays.

  A graph layer with mean aggregation over 50000 nodes and 128 channels: for node `r` and output channel `j`

      out[r, j] = (∑ₖ agg[r, k] · W_l[j, k]) + (∑ₖ x[r, k] · W_r[j, k]) + b[j]

  where `agg` is the per-node mean of the neighbours' features. The mean itself is computed by the same host
  operations on both sides of the comparison and is carried here as an array `agg`, never opened. Both
  programs compute this function on the extended reals; they differ only in the order in which the bias and the
  second product are added, and addition of extended reals is commutative and associative.
-/
import Idealize.ShloMosaic.PureOps.Ideal
import Idealize.ShloMosaic.Lib.ValueIdx

noncomputable section

open scoped BigOperators

namespace Cert.Sage

open Idealize.ShloMosaic Idealize.ShloMosaic.ValueIdx

/-- Node features and outputs: 50000 nodes by 128 channels. -/
abbrev Nodes : Shape := ⟨2, ![50000, 128]⟩
/-- A weight matrix, stored output channel first: `W[j, k]`. -/
abbrev Weights : Shape := ⟨2, ![128, 128]⟩
/-- The bias, one entry per output channel. -/
abbrev Bias : Shape := ⟨1, ![128]⟩

/-- The layer at node `r` and output channel `j`: both products summed over the input channel `k`, then the bias. -/
def layerAt (agg x : Nodes.Idx → EReal) (wl wr : Weights.Idx → EReal) (b : Bias.Idx → EReal)
    (r : Fin 50000) (j : Fin 128) : EReal :=
  (∑ k : Fin 128, agg (ix2 r k) * wl (ix2 j k)) + (∑ k : Fin 128, x (ix2 r k) * wr (ix2 j k)) + b (ix1 j)

/-- The layer as a whole array. -/
def layer (agg x : Nodes.Idx → EReal) (wl wr : Weights.Idx → EReal) (b : Bias.Idx → EReal) : Nodes.Idx → EReal :=
  fun i => layerAt agg x wl wr b ⟨(i 0).val, (i 0).isLt⟩ ⟨(i 1).val, (i 1).isLt⟩

/-- Adding the bias before or after the second product is the same sum: extended-real addition is a commutative
    monoid, infinities included, so no finiteness is needed. -/
theorem bias_then_product (a b c : EReal) : a + b + c = a + c + b := add_right_comm a b c

end Cert.Sage

end
-- ==== Proof.Entry.lean ====
/-
  What the kernel's region finds in the arrays it stages.

  Before the one pallas region the kernel's @main runs thirty-two host operations. The region stages five arrays:
  the neighbour mean `agg` (gather of the source rows, scatter-add by destination, divided by the clamped in-degree),
  the features `x` as launched, the two weight matrices TRANSPOSED, and the bias reshaped to a single row. The
  reference's @main starts with the very same operations up to the mean, so the mean is identified with the
  reference's own stage for it and is never opened.
-/
import proofs.«147266_j24249385353613_1_alg».proof.Proof.Gen.KernelIdeal.Frame
import proofs.«147266_j24249385353613_1_alg».proof.Proof.Gen.ReferenceIdeal.Read
import Idealize.ShloMosaic.Lib.StableHlo.Run

noncomputable section

namespace Cert.Sage.Entry

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The first staged array is the neighbour mean of the launched features along the launched edges: the same
    composition of gather, scatter-add, clamp and division that the reference's run names as its stage `%22`. -/
theorem mean_entry (c : Dev nD) :
    (V m c main_v22 : S50000x128.Idx → Elt F .f32)
      = Cert.ReferenceIdeal.Read.val_main_v22 (F := F) (m ((c : Thread nD τ).loc main_arg0)) (m ((c : Thread nD τ).loc main_arg1)) := by
  dsimp only [V, hostOps0]
  after_results_simp
  rfl

/-- The third staged array is the first weight matrix transposed. -/
theorem wl_entry (c : Dev nD) :
    (V m c main_v23 : S128x128.Idx → Elt F .f32)
      = transpose S128x128 [1, 0] (m ((c : Thread nD τ).loc main_arg2)) transposes_S128x128_S128x128_1_0 := by
  dsimp only [V, hostOps0]
  after_results

/-- The fourth staged array is the second weight matrix transposed. -/
theorem wr_entry (c : Dev nD) :
    (V m c main_v24 : S128x128.Idx → Elt F .f32)
      = transpose S128x128 [1, 0] (m ((c : Thread nD τ).loc main_arg3)) transposes_S128x128_S128x128_1_0 := by
  dsimp only [V, hostOps0]
  after_results

/-- The fifth staged array is the bias laid out as one row. -/
theorem bias_entry (c : Dev nD) :
    (V m c main_v25 : S1x128.Idx → Elt F .f32)
      = shapeCast S1x128 (m ((c : Thread nD τ).loc main_arg4)) shapeCasts_S128_S1x128 := by
  dsimp only [V, hostOps0]
  after_results
  rfl

end Cert.Sage.Entry

end
-- ==== Proof.Body.lean ====
/-
  What one grid point computes, entry by entry.

  At a grid point the body holds a block of 2000 rows of the neighbour mean `a` and of the features `x`, both
  weight matrices already transposed (`wl[k, q]`, `wr[k, q]`: input channel first) and the bias as one row. It rounds
  the four matrices to bf16 — the identity on extended reals —, multiplies each pair into a zero accumulator, adds the
  two products and then the bias row broadcast down the block. So its entry `(p, q)` is

      (∑ₖ a[p, k] · wl[k, q]) + (∑ₖ x[p, k] · wr[k, q]) + bias[0, q].
-/
import proofs.«147266_j24249385353613_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Body

open Idealize.ShloMosaic Idealize.ShloMosaic.ValueIdx
open Cert.KernelIdeal Cert.KernelIdeal.Gen

/-! ## The block product's operand indices, axis by axis -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator, at entry `(p, q)`: row `p` of the left factor against column `q` of the
    right one, summed over the 128 input channels. -/
theorem product_at {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row laid down the block: entry `(p, q)` is the row's entry `q`. -/
theorem bias_at (b : Vec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact broadcastTo_1b_ab_apply b broadcasts_S1x128_S2000x128 p q

/-- THE BODY'S RESULT AT AN ENTRY: the two products over the input channel, then the bias. -/
theorem result_at (a x : Vec Ideal S2000x128 .f32) (wl wr : Vec Ideal S128x128 .f32) (b : Vec Ideal S1x128 .f32)
    (p : Fin 2000) (q : Fin 128) :
    k0_pay1 (F := Ideal) a x wl wr b (ix2 p q)
      = (∑ k : Fin 128, a (ix2 p k) * wl (ix2 k q)) + (∑ k : Fin 128, x (ix2 p k) * wr (ix2 k q)) + b (ix2 (0 : Fin 1) q) := by
  unfold k0_pay1
  rw [addf_apply, addf_apply, product_at, product_at, bias_at]
  simp only [truncf_apply, shapeCast_self]

end Cert.Sage.Body

end
-- ==== Proof.Blocks.lean ====
/-
  From the grid's blocks to the whole result array.

  The region runs 25 grid points; point `t` stages rows `2000·t … 2000·t + 1999` of the neighbour mean and of the
  features, the two transposed weight matrices and the bias row whole, and writes back rows `2000·t … 2000·t + 1999` of
  the result. The body's entry `(p, q)` at point `t` is therefore entry `(2000·t + p, q)` of ONE function of the five
  staged arrays (`regionOut`), the 25 row blocks cover the 50000 rows, and so the result array ends holding that
  function.
-/
import proofs.«147266_j24249385353613_1_alg».proof.Proof.Gen.KernelIdeal.Value
import proofs.«147266_j24249385353613_1_alg».proof.Proof.Body
import Idealize.ShloMosaic.Lib.Pipeline.Value
import Idealize.ShloMosaic.Lib.Tactic

noncomputable section

open scoped BigOperators

namespace Cert.Sage.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem origin : (![0, 0] : Fin 2 → Nat) = fun _ => 0 := funext fun a => by fin_cases a <;> rfl

/-- The region's result as one function of the five staged arrays: mean `A`, features `X`, the transposed weights
    `WL[k, q]`, `WR[k, q]` and the bias row `B[0, q]`. -/
def regionOut (A X : S50000x128.Idx → EReal) (WL WR : S128x128.Idx → EReal) (B : S1x128.Idx → EReal) : S50000x128.Idx → EReal :=
  fun i => (∑ k : Fin 128, A (ix2 (⟨(i 0).val, (i 0).isLt⟩ : Fin 50000) k) * WL (ix2 k (⟨(i 1).val, (i 1).isLt⟩ : Fin 128)))
    + (∑ k : Fin 128, X (ix2 (⟨(i 0).val, (i 0).isLt⟩ : Fin 50000) k) * WR (ix2 k (⟨(i 1).val, (i 1).isLt⟩ : Fin 128)))
    + B (ix2 (0 : Fin 1) (⟨(i 1).val, (i 1).isLt⟩ : Fin 128))

/-- `regionOut` at an index whose coordinates are `(r, q)`. -/
theorem regionOut_at (A X : S50000x128.Idx → EReal) (WL WR : S128x128.Idx → EReal) (B : S1x128.Idx → EReal)
    (i : S50000x128.Idx) (r : Fin 50000) (q : Fin 128) (h0 : (i 0).val = r.val) (h1 : (i 1).val = q.val) :
    regionOut A X WL WR B i
      = (∑ k : Fin 128, A (ix2 r k) * WL (ix2 k q)) + (∑ k : Fin 128, X (ix2 r k) * WR (ix2 k q)) + B (ix2 (0 : Fin 1) q) := by
  have e0 : (⟨(i 0).val, (i 0).isLt⟩ : Fin 50000) = r := Fin.ext h0
  have e1 : (⟨(i 1).val, (i 1).isLt⟩ : Fin 128) = q := Fin.ext h1
  unfold regionOut
  rw [e0, e1]

/-- The printed index maps over the 25 points: the row-blocked windows (mean, features, result) are at block row `t`,
    the whole-array windows (weights, bias) at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## A block read where it lies in its array

Stated for ANY arrays of the staged shapes: the arrays the region stages are long compositions of host operations,
and nothing here looks inside them. -/

/-- Row `p` of the first window's block at point `t` is row `2000·t + p` of its array. -/
theorem mean_blk (A : S50000x128.Idx → EReal) (t : Fin cfg0.N) (p : Fin 2000) (k : Fin 128) (r : Fin 50000)
    (hr : r.val = 2000 * t.val + p.val) :
    (((cfg0.win 0).blk t).view.read (Elt Ideal) A : Vec Ideal S2000x128 .f32) (ix2 p k) = A (ix2 r k) := by
  obtain ⟨e0, e1, -⟩ := idx_facts t
  show A (((cfg0.win 0).blk t).view.emb (ix2 p k)) = _
  refine congrArg A (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row `p` of the second window's block at point `t` is row `2000·t + p` of its array. -/
theorem feat_blk (X : S50000x128.Idx → EReal) (t : Fin cfg0.N) (p : Fin 2000) (k : Fin 128) (r : Fin 50000)
    (hr : r.val = 2000 * t.val + p.val) :
    (((cfg0.win 1).blk t).view.read (Elt Ideal) X : Vec Ideal S2000x128 .f32) (ix2 p k) = X (ix2 r k) := by
  obtain ⟨-, -, e0, e1, -⟩ := idx_facts t
  show X (((cfg0.win 1).blk t).view.emb (ix2 p k)) = _
  refine congrArg X (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The third window's block is its whole array at every point. -/
theorem wl_blk (WL : S128x128.Idx → EReal) (t : Fin cfg0.N) (k q : Fin 128) :
    (((cfg0.win 2).blk t).view.read (Elt Ideal) WL : Vec Ideal S128x128 .f32) (ix2 k q) = WL (ix2 k q) := by
  obtain ⟨-, -, -, -, e0, e1, -⟩ := idx_facts t
  show WL (((cfg0.win 2).blk t).view.emb (ix2 k q)) = _
  refine congrArg WL (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The fourth window's block is its whole array at every point. -/
theorem wr_blk (WR : S128x128.Idx → EReal) (t : Fin cfg0.N) (k q : Fin 128) :
    (((cfg0.win 3).blk t).view.read (Elt Ideal) WR : Vec Ideal S128x128 .f32) (ix2 k q) = WR (ix2 k q) := by
  obtain ⟨-, -, -, -, -, -, e0, e1, -⟩ := idx_facts t
  show WR (((cfg0.win 3).blk t).view.emb (ix2 k q)) = _
  refine congrArg WR (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The fifth window's block is its whole one-row array at every point. -/
theorem bias_blk (B : S1x128.Idx → EReal) (t : Fin cfg0.N) (q : Fin 128) :
    (((cfg0.win 4).blk t).view.read (Elt Ideal) B : Vec Ideal S1x128 .f32) (ix2 (0 : Fin 1) q) = B (ix2 (0 : Fin 1) q) := by
  obtain ⟨-, -, -, -, -, -, -, -, e0, e1, -⟩ := idx_facts t
  show B (((cfg0.win 4).blk t).view.emb (ix2 (0 : Fin 1) q)) = _
  refine congrArg B (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-! ## What a point writes back, the cover, the array -/

/-- The body's result at point `t`, over the point's blocks of ANY five arrays, cut to the result window's block, is
    block `t` of `regionOut` of those arrays. -/
theorem point_result (A X : S50000x128.Idx → EReal) (WL WR : S128x128.Idx → EReal) (B : S1x128.Idx → EReal) (t : Fin cfg0.N) :
    (cfg0.win 5).cut (grid0.coords t)
      (out0_5 (F := Ideal) (((cfg0.win 0).blk t).view.read (Elt Ideal) A) (((cfg0.win 1).blk t).view.read (Elt Ideal) X)
        (((cfg0.win 2).blk t).view.read (Elt Ideal) WL) (((cfg0.win 3).blk t).view.read (Elt Ideal) WR)
        (((cfg0.win 4).blk t).view.read (Elt Ideal) B))
      = ((cfg0.win 5).blk t).view.read (Elt Ideal) (regionOut A X WL WR B) := by
  unfold out0_5
  rw [View.canon_unit_zero origin]
  simp only [View.ld_unit_zero (S := S2000x128) origin, View.ld_unit_zero (S := S128x128) origin, View.ld_unit_zero (S := S1x128) origin]
  have ht : t.val < 25 := by have h := t.isLt; have hN : cfg0.N = 25 := N_0; omega
  obtain ⟨-, -, -, -, -, -, -, -, -, -, e0, e1⟩ := idx_facts t
  refine funext fun (j : S2000x128.Idx) => ?_
  obtain ⟨p, q, rfl⟩ : ∃ (p : Fin 2000) (q : Fin 128), j = ix2 p q := ⟨j 0, j 1, eq_ix2 j⟩
  have hp : p.val < 2000 := p.isLt
  obtain ⟨r, hr⟩ : ∃ r : Fin 50000, r.val = 2000 * t.val + p.val := ⟨⟨2000 * t.val + p.val, by omega⟩, rfl⟩
  show k0_pay1 (F := Ideal) (((cfg0.win 0).blk t).view.read (Elt Ideal) A) (((cfg0.win 1).blk t).view.read (Elt Ideal) X)
        (((cfg0.win 2).blk t).view.read (Elt Ideal) WL) (((cfg0.win 3).blk t).view.read (Elt Ideal) WR)
        (((cfg0.win 4).blk t).view.read (Elt Ideal) B) (ix2 p q)
    = regionOut A X WL WR B (((cfg0.win 5).blk t).view.emb (ix2 p q))
  refine (Body.result_at (((cfg0.win 0).blk t).view.read (Elt Ideal) A) (((cfg0.win 1).blk t).view.read (Elt Ideal) X)
        (((cfg0.win 2).blk t).view.read (Elt Ideal) WL) (((cfg0.win 3).blk t).view.read (Elt Ideal) WR)
        (((cfg0.win 4).blk t).view.read (Elt Ideal) B) p q).trans ?_
  refine Eq.trans ?_ (regionOut_at A X WL WR B (((cfg0.win 5).blk t).view.emb (ix2 p q)) r q ?_ ?_).symm
  · refine congrArg₂ (· + ·) (congrArg₂ (· + ·) (Finset.sum_congr rfl fun k _ => ?_) (Finset.sum_congr rfl fun k _ => ?_)) ?_
    · exact congrArg₂ (· * ·) (mean_blk A t p k r hr) (wl_blk WL t k q)
    · exact congrArg₂ (· * ·) (feat_blk X t p k r hr) (wr_blk WR t k q)
    · exact bias_blk B t q
  · show win0_5.index t (0 : Fin 2) * 2000 + 1 * p.val = r.val
    rw [e0, hr]; omega
  · show win0_5.index t (1 : Fin 2) * 128 + 1 * q.val = q.val
    rw [e1]; omega

/-- WHAT POINT `t` WRITES BACK is block `t` of `regionOut` of the staged arrays. -/
theorem flushed_eq (c : Dev nD) (t : Fin cfg0.N) :
    (dats m 0 c).flushed 5 t = ((cfg0.win 5).blk t).view.read (Elt Ideal)
      (regionOut (V m c main_v22) (V m c main_arg0) (V m c main_v23) (V m c main_v24) (V m c main_v25)) := by
  rw [Cert.KernelIdeal.Value.flushed5]
  unfold iblk
  exact point_result (V m c main_v22) (V m c main_arg0) (V m c main_v23) (V m c main_v24) (V m c main_v25) t

/-- An index of the result array lies in point `t`'s block iff each coordinate lies in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- THE COVER: row `i₀` of the result lies in the block of point `i₀ / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- THE RESULT ARRAY after the run is `regionOut` of the staged arrays. -/
theorem final (c : Dev nD) : (dats m 0 c).arrAt 5 cfg0.N
    = regionOut (V m c main_v22) (V m c main_arg0) (V m c main_v23) (V m c main_v24) (V m c main_v25) :=
  (dats m 0 c).arrAt_eq_of_cover 5
    (regionOut (V m c main_v22) (V m c main_arg0) (V m c main_v23) (V m c main_v24) (V m c main_v25))
    (fun t _ => flushed_eq m c t) cover

/-- The kernel's run, read: the result array at `regionOut` of the staged arrays, the arguments unchanged. -/
theorem run : θ_run defs (onTc (τ := τ) (main (F := Ideal))) ⟨m, fun _ => 0, ρ⟩ fun r => ∀ c : Dev nD,
      r.2.mem ((c : Thread nD τ).loc main_v26)
        = regionOut (V m c main_v22) (V m c main_arg0) (V m c main_v23) (V m c main_v24) (V m c main_v25)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Sage.Blocks

end
-- ==== Proof.Bridge.lean ====
/-
  The region's result is the layer.

  The region computes `regionOut` of five staged arrays: the neighbour mean, the features, the two weight matrices
  TRANSPOSED and the bias as one row. Entry `(k, q)` of a transposed matrix is entry `(q, k)` of the matrix and entry
  `(0, q)` of the row is entry `q` of the bias, so at node `r` and output channel `q` the region's result is
  `(∑ₖ agg[r, k] · W_l[q, k]) + (∑ₖ x[r, k] · W_r[q, k]) + b[q]`: the layer, term by term.
-/
import proofs.«147266_j24249385353613_1_alg».proof.Proof.Spec
import proofs.«147266_j24249385353613_1_alg».proof.Proof.Blocks
import Idealize.ShloMosaic.Lib.ValueLayout

noncomputable section

open scoped BigOperators

namespace Cert.Sage.Bridge

open Idealize.ShloMosaic Idealize.ShloMosaic.ValueIdx
open Cert.KernelIdeal Cert.KernelIdeal.Facts₀

/-- `regionOut` at the transposed weights and the bias row is the layer at the weights and the bias. -/
theorem regionOut_eq_layer (agg x : S50000x128.Idx → EReal) (wl wr : S128x128.Idx → EReal) (b : S128.Idx → EReal) :
    Cert.Sage.Blocks.regionOut agg x
        (transpose S128x128 [1, 0] wl transposes_S128x128_S128x128_1_0)
        (transpose S128x128 [1, 0] wr transposes_S128x128_S128x128_1_0)
        (shapeCast S1x128 b shapeCasts_S128_S1x128)
      = Cert.Sage.layer agg x wl wr b := by
  funext i
  unfold Cert.Sage.Blocks.regionOut Cert.Sage.layer Cert.Sage.layerAt
  refine congrArg₂ (· + ·) (congrArg₂ (· + ·) (Finset.sum_congr rfl fun k _ => ?_) (Finset.sum_congr rfl fun k _ => ?_)) ?_
  · exact congrArg (agg _ * ·) (transpose_ix2_apply wl transposes_S128x128_S128x128_1_0 k _)
  · exact congrArg (x _ * ·) (transpose_ix2_apply wr transposes_S128x128_S128x128_1_0 k _)
  · exact shapeCast_a_1a_apply b shapeCasts_S128_S1x128 (0 : Fin 1) _

end Cert.Sage.Bridge

end
-- ==== Proof.RefLayer.lean ====
/-
  The reference computes the layer.

  After the neighbour mean (its stage `%22`, kept closed) the reference transposes each weight matrix and contracts the
  mean, respectively the features, with it over the input channel; entry `(k, j)` of a transposed matrix is entry
  `(j, k)` of the matrix, so each contraction is `∑ₖ ·[r, k] · W[j, k]`. It adds the bias — broadcast along the nodes —
  to the first product BEFORE adding the second product; the layer's formula adds it last. The two orders agree on the
  extended reals because their addition is commutative and associative.
-/
import proofs.«147266_j24249385353613_1_alg».proof.Proof.Gen.ReferenceIdeal.Read
import proofs.«147266_j24249385353613_1_alg».proof.Proof.Spec

noncomputable section

open scoped BigOperators

namespace Cert.Sage.Ref

open Idealize.ShloMosaic Idealize.ShloMosaic.ValueIdx
open Cert.ReferenceIdeal Cert.ReferenceIdeal.Read

/-! ## The reference's composed index maps at node `r`, output channel `j`, input channel `k` -/

theorem mean_row (r : Fin 50000) (j k : Fin 128) : lidx_main_v24 (ix2 r j) k = ix2 r k :=
  funext fun a => Fin.ext (by match a with | ⟨0, _⟩ => rfl | ⟨1, _⟩ => rfl)
theorem wl_entry (r : Fin 50000) (j k : Fin 128) : idx_main_v23 (ridx_main_v24 (ix2 r j) k) = ix2 j k :=
  funext fun a => Fin.ext (by match a with | ⟨0, _⟩ => rfl | ⟨1, _⟩ => rfl)
theorem feat_row (r : Fin 50000) (j k : Fin 128) : lidx_main_v29 (ix2 r j) k = ix2 r k :=
  funext fun a => Fin.ext (by match a with | ⟨0, _⟩ => rfl | ⟨1, _⟩ => rfl)
theorem wr_entry (r : Fin 50000) (j k : Fin 128) : idx_main_v28 (ridx_main_v29 (ix2 r j) k) = ix2 j k :=
  funext fun a => Fin.ext (by match a with | ⟨0, _⟩ => rfl | ⟨1, _⟩ => rfl)
theorem bias_entry (r : Fin 50000) (j : Fin 128) : idx_main_v25 (idx_main_v26 (ix2 r j)) = ix1 j :=
  funext fun a => Fin.ext (by match a with | ⟨0, _⟩ => rfl)

/-- THE REFERENCE'S RESULT is the layer of its own neighbour mean, the features, the two weight matrices and the bias. -/
theorem result_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v30 (F := Ideal) x0 x1 x2 x3 x4 = Cert.Sage.layer (val_main_v22 (F := Ideal) x0 x1) x0 x2 x3 x4 := by
  funext i
  obtain ⟨r, j, rfl⟩ : ∃ (r : Fin 50000) (j : Fin 128), i = ix2 r j := ⟨i 0, i 1, eq_ix2 i⟩
  rw [val_main_v30_apply, val_main_v27_apply, val_main_v24_apply, val_main_v26_apply, val_main_v25_apply, val_main_v29_apply]
  simp only [val_main_v23_apply, val_main_v28_apply, mean_row, wl_entry, feat_row, wr_entry, bias_entry, Ideal.addf_def]
  exact Cert.Sage.bias_then_product _ _ _

end Cert.Sage.Ref

end
-- ==== Proof.lean ====
/-
  A graph layer with mean aggregation, 50000 nodes by 128 channels, as a Pallas kernel against its jnp reference:

      out = mean_{j ∈ N(i)} x_j · W_lᵀ + b + x · W_rᵀ.

  Both programs compute the neighbour mean by the same host operations (gather of the source rows, scatter-add by
  destination, division by the in-degree clamped at one); that array is carried through the proof closed. The kernel
  then runs one pallas region over 25 blocks of 2000 rows: it multiplies the mean's block and the features' block by
  the transposed weights (rounded to bf16, the identity on extended reals) into zero accumulators, adds the two
  products and then the bias row. The reference contracts the whole arrays with the transposed weights and adds the
  bias to the first product before adding the second. At every node and output channel both are

      (∑ₖ agg[r, k] · W_l[j, k]) + (∑ₖ x[r, k] · W_r[j, k]) + b[j]

  up to the order of the last two additions, and extended-real addition is commutative and associative, so the
  precondition (finite inputs) is never opened.

  Modules: Spec (the layer and the one law), Body (a grid point's result at an entry), Blocks (the blocks cover the
  array: the region's result as one function of the staged arrays), Entry (what the staged arrays are), Bridge (that
  function is the layer), RefLayer (the reference's result is the layer). The three frames are the generated ones;
  the idealization rewrote nothing, so `preserves` is trivial.
-/
import proofs.«147266_j24249385353613_1_alg».proof.Defs
import proofs.«147266_j24249385353613_1_alg».proof.Proof.Gen.Kernel
import proofs.«147266_j24249385353613_1_alg».proof.Proof.Gen.Kernel.Frame
import proofs.«147266_j24249385353613_1_alg».proof.Proof.Gen.KernelIdeal
import proofs.«147266_j24249385353613_1_alg».proof.Proof.Gen.KernelIdeal.Frame
import proofs.«147266_j24249385353613_1_alg».proof.Proof.Gen.KernelIdeal.Value
import proofs.«147266_j24249385353613_1_alg».proof.Proof.Gen.ReferenceIdeal
import proofs.«147266_j24249385353613_1_alg».proof.Proof.Gen.ReferenceIdeal.Run
import proofs.«147266_j24249385353613_1_alg».proof.Proof.Gen.ReferenceIdeal.Read
import proofs.«147266_j24249385353613_1_alg».proof.Proof.Gen.Pre_finite_inputs
import proofs.«147266_j24249385353613_1_alg».proof.Proof.Spec
import proofs.«147266_j24249385353613_1_alg».proof.Proof.Entry
import proofs.«147266_j24249385353613_1_alg».proof.Proof.Blocks
import proofs.«147266_j24249385353613_1_alg».proof.Proof.Bridge
import proofs.«147266_j24249385353613_1_alg».proof.Proof.RefLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the neighbour mean of the launched features along the launched edges, the
    features, the two weight matrices and the bias. -/
theorem algebraic : Cert.algebraic_KernelIdeal_ReferenceIdeal := by
  intro m ρ m' ρ' _ hagree
  refine ⟨fun c => Cert.Sage.layer
      (Cert.ReferenceIdeal.Read.val_main_v22 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.Sage.Blocks.run m ρ)
    rw [Cert.Sage.Entry.mean_entry, Cert.Sage.Entry.wl_entry, Cert.Sage.Entry.wr_entry, Cert.Sage.Entry.bias_entry,
      Cert.KernelIdeal.Gen.V_main_arg0]
    exact Cert.Sage.Bridge.regionOut_eq_layer _ _ _ _ _
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v30_eq _ _ _ _ _).trans (Cert.Sage.Ref.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
